-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S2x10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S1x400x10000 : Shape := ⟨3, ![1, 400, 10000]⟩
abbrev S400x16 : Shape := ⟨2, ![400, 16]⟩
abbrev S400x10000 : Shape := ⟨2, ![400, 10000]⟩
abbrev S400 : Shape := ⟨1, ![400]⟩
abbrev S400x1 : Shape := ⟨2, ![400, 1]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S1x16, .f32⟩
  | .hbm, ⟨8, _⟩ => ⟨S10000x16, .f32⟩
  | .hbm, ⟨9, _⟩ => ⟨S1x16, .f32⟩
  | .hbm, ⟨10, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S10000x16, .f32⟩
  | .local _ .vmem, ⟨3, _⟩ => ⟨S1x400x10000, .f32⟩
  | .local _ .vmem, ⟨4, _⟩ => ⟨S1x400x10000, .f32⟩
  | .local _ .vmem, ⟨5, _⟩ => ⟨S10000x16, .f32⟩
  | .local _ .vmem, ⟨6, _⟩ => ⟨S1x16, .f32⟩
  | .local _ .vmem, ⟨7, _⟩ => ⟨S16x16, .f32⟩
  | .local _ .vmem, ⟨8, _⟩ => ⟨S400x16, .f32⟩
  | .local _ .vmem, ⟨9, _⟩ => ⟨S400x16, .f32⟩
  | .local _ .vmem, ⟨10, _⟩ => ⟨S1x400x10000, .f32⟩
  | .local _ .vmem, ⟨11, _⟩ => ⟨S1x400x10000, .f32⟩
  | .local _ .vmem, ⟨12, _⟩ => ⟨S10000x16, .f32⟩
  | .local _ .vmem, ⟨13, _⟩ => ⟨S1x16, .f32⟩
  | .local _ .vmem, ⟨14, _⟩ => ⟨S400x16, .f32⟩
  | .local _ .vmem, ⟨15, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x16_S16x16_0_0 : ∀ a, (![0, 0] : Fin 2 → Nat) a + S16x16.size a ≤ S16x16.size a
  h_S16x16 : 0 < S16x16.numel
  inb_S400x16_S400x16_0_0 : ∀ a, (![0, 0] : Fin 2 → Nat) a + S400x16.size a ≤ S400x16.size a
  h_S400x16 : 0 < S400x16.numel
  reduces_S400x16_S400 : S400x16.Reduces [1] S400
  shapeCasts_S400_S400x1 : S400.ShapeCasts S400x1
  broadcasts_S400x1_S400x16 : S400x1.Broadcasts S400x16
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x16_S400x16_1_0_0_1_n_n_wf : DotDims.WF S400x16 S16x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x400x10000.size a ≤ S2x10000x10000.size a
  hwx1_0 : ∀ i : grid1.Coords, EltTy.bits .f32 = 32 ∨ (Rect.block (s := S2x10000x10000) S1x400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x400x10000.size a ≤ S2x10000x10000.size a
  hwx2_0 : ∀ i : grid2.Coords, EltTy.bits .f32 = 32 ∨ (Rect.block (s := S2x10000x10000) S1x400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2) S400x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S1x400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v2) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x10000x10000 : Shape := ⟨3, ![1, 10000, 10000]⟩
abbrev S10000x10000 : Shape := ⟨2, ![10000, 10000]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S1x10000x10000, .f32⟩
  | .hbm, ⟨8, _⟩ => ⟨S10000x10000, .f32⟩
  | .hbm, ⟨9, _⟩ => ⟨S10000x16, .f32⟩
  | .hbm, ⟨10, _⟩ => ⟨S1x16, .f32⟩
  | .hbm, ⟨11, _⟩ => ⟨S10000x16, .f32⟩
  | .hbm, ⟨12, _⟩ => ⟨S10000x16, .f32⟩
  | .hbm, ⟨13, _⟩ => ⟨S_, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S1x10000x10000, .f32⟩
  | .hbm, ⟨18, _⟩ => ⟨S10000x10000, .f32⟩
  | .hbm, ⟨19, _⟩ => ⟨S10000x16, .f32⟩
  | .hbm, ⟨20, _⟩ => ⟨S1x16, .f32⟩
  | .hbm, ⟨21, _⟩ => ⟨S10000x16, .f32⟩
  | .hbm, ⟨22, _⟩ => ⟨S10000x16, .f32⟩
  | .hbm, ⟨23, _⟩ => ⟨S_, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000x1, .f32⟩
  | .hbm, ⟨29, _⟩ => ⟨S10000x16, .f32⟩
  | .hbm, ⟨30, _⟩ => ⟨S10000x16, .f32⟩
  | .hbm, ⟨31, _⟩ => ⟨S10000x16, .f32⟩
  | .hbm, ⟨32, _⟩ => ⟨S_, .f32⟩
  | .hbm, ⟨33, _⟩ => ⟨S10000, .f32⟩
  | .hbm, ⟨34, _⟩ => ⟨S10000x1, .f32⟩
  | .hbm, ⟨35, _⟩ => ⟨S10000x1, .f32⟩
  | .hbm, ⟨36, _⟩ => ⟨S10000x16, .f32⟩
  | .hbm, ⟨37, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v16 : Ref sig .tc := ⟨.hbm, 37, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  slices_S2x10000x10000_S1x10000x10000_1_0_0 : S2x10000x10000.Slices ![1, 0, 0] S1x10000x10000
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.Spec.lean ====
/-
  A two-layer graph convolution over dense adjacency slabs, entry by entry on the extended reals.

  With X the 10000×128 features, A the two 10000×10000 adjacency slabs, W₁ (128×16), b₁, W₂ (16×16), b₂:
    feat   = X·W₁,
    hidden = relu(A₀·feat + b₁)·W₂,
    scores = logSoftmax over each row of A₁·hidden + b₂,
  where logSoftmax of a row g is g − max g − log Σ exp (g − max g). Every product is the plain sum over the
  contracted coordinate; the row maximum is a fold of max from the word of −∞; relu compares with the word of 0.
  The two float words are kept as words: both programs spell them the same way, so they are never evaluated.
-/
import Idealize.ShloMosaic.PureOps.Ideal
import Idealize.ShloMosaic.Lib.ValueIdx

noncomputable section

namespace Gcn

open Idealize.ShloMosaic Idealize.ShloMosaic.ValueIdx

/-- An a×b matrix of extended reals. -/
abbrev Mat (a b : ℕ) : Type := (⟨2, ![a, b]⟩ : Shape).Idx → EReal
/-- A vector of a extended reals. -/
abbrev Row (a : ℕ) : Type := (⟨1, ![a]⟩ : Shape).Idx → EReal
/-- s slabs of a×b matrices. -/
abbrev Slabs (s a b : ℕ) : Type := (⟨3, ![s, a, b]⟩ : Shape).Idx → EReal

/-- The word of 0 read as an extended real. -/
def zeroWord : EReal := Ideal.ofBits .f32 0x00000000#32
/-- The word of −∞ read as an extended real. -/
def negInfWord : EReal := Ideal.ofBits .f32 0xFF800000#32

/-- X·W₁ at (r, j): Σ_l X(r, l)·W₁(l, j). -/
def feat (X : Mat 10000 128) (W : Mat 128 16) : Mat 10000 16 :=
  fun i => ∑ l : Fin 128, X (ix2 (i 0) l) * W (ix2 l (i 1))

/-- One propagation step at (r, j): row r of slab s of the adjacency against column j of S, plus the bias. -/
def prop (s : Fin 2) (A : Slabs 2 10000 10000) (S : Mat 10000 16) (b : Row 16) (r : Fin 10000) (j : Fin 16) : EReal :=
  ∑ k : Fin 10000, A (ix3 s r k) * S (ix2 k j) + b (ix1 j)

/-- relu(A₀·S + b)·W at (r, j). -/
def hidden (A : Slabs 2 10000 10000) (S : Mat 10000 16) (b : Row 16) (W : Mat 16 16) : Mat 10000 16 :=
  fun i => ∑ l : Fin 16, max (prop 0 A S b (i 0) l) zeroWord * W (ix2 l (i 1))

/-- The maximum of a row of 16 entries, folded from the word of −∞. -/
def rowMax (g : Fin 16 → EReal) : EReal := (Finset.univ : Finset (Fin 16)).fold max negInfWord g

/-- logSoftmax of a row of 16 entries at j: g j − max g − log Σ_l exp (g l − max g). -/
def logSoftmax (g : Fin 16 → EReal) (j : Fin 16) : EReal :=
  (g j - rowMax g) - Ideal.log (∑ l : Fin 16, Ideal.exp (g l - rowMax g))

/-- logSoftmax over each row of A₁·S + b. -/
def scores (A : Slabs 2 10000 10000) (S : Mat 10000 16) (b : Row 16) : Mat 10000 16 :=
  fun i => logSoftmax (fun l => prop 1 A S b (i 0) l) (i 1)

/-- The whole network. -/
def gcn (X : Mat 10000 128) (A : Slabs 2 10000 10000) (W₁ : Mat 128 16) (b₁ : Row 16) (W₂ : Mat 16 16) (b₂ : Row 16) :
    Mat 10000 16 :=
  scores A (hidden A (feat X W₁) b₁ W₂) b₂

end Gcn

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.Payloads.lean ====
/-
  What each kernel body stores, read at an entry, at the ideal values.

  The first body stores X·W₁ whole. The second, on a block of 400 rows of adjacency slab 0, stores
  relu(block·S + b)·W: at (p, j) the sum over l of max(Σ_k block(p, k)·S(k, l) + b(l), 0)·W(l, j). The third, on a block
  of 400 rows of slab 1, stores the logSoftmax of row p of block·S + b at j.
-/
import proofs.«149314_g61306363183712_cont_9to1c4b_794_4_alg».proof.Proof.Gen.KernelIdeal.Skeleton
import proofs.«149314_g61306363183712_cont_9to1c4b_794_4_alg».proof.Proof.Spec
import proofs.«149314_g61306363183712_cont_9to1c4b_794_4_alg».proof.Proof.LibDenseLayer
import proofs.«149314_g61306363183712_cont_9to1c4b_794_4_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-- The first body's stored value at (r, j): Σ_l X(r, l)·W₁(l, j). -/
theorem pay0_apply (x0 : Vec Ideal S10000x128 .f32) (x1 : Vec Ideal S128x16 .f32) (r : Fin 10000) (j : Fin 16) :
    k0_pay1 (F := Ideal) x0 x1 (ix2 r j) = ∑ l : Fin 128, x0 (ix2 r l) * x1 (ix2 l j) := by
  unfold k0_pay1
  exact DenseLayer.matmul_rows_apply dot_S10000x128_S128x16_S10000x16_1_0_0_1_n_n_wf none x0 x1 r j

/-- block·S + b as an array: the part the second and third bodies share. -/
def affine (x0 : Vec Ideal S1x400x10000 .f32) (x1 : Vec Ideal S10000x16 .f32) (x2 : Vec Ideal S1x16 .f32) :
    FVec Ideal S400x16 .f32 :=
  addf (matmul dot_S400x10000_S10000x16_S400x16_1_0_0_1_n_n none
          (shapeCast S400x10000 x0 shapeCasts_S1x400x10000_S400x10000 : FVec Ideal S400x10000 .f32)
          (shapeCast S10000x16 x1 shapeCasts_S10000x16_S10000x16 : FVec Ideal S10000x16 .f32)
          (constant S400x16 .f32 0x00000000#32))
        (broadcastTo S400x16 (shapeCast S1x16 x2 shapeCasts_S1x16_S1x16 : FVec Ideal S1x16 .f32) broadcasts_S1x16_S400x16)

/-- block·S + b at (p, l). -/
theorem affine_apply (x0 : Vec Ideal S1x400x10000 .f32) (x1 : Vec Ideal S10000x16 .f32) (x2 : Vec Ideal S1x16 .f32)
    (p : Fin 400) (l : Fin 16) :
    affine x0 x1 x2 (ix2 p l)
      = ∑ k : Fin 10000, x0 (ix3 (0 : Fin 1) p k) * x1 (ix2 k l) + x2 (ix2 (0 : Fin 1) l) := by
  unfold affine
  rw [shapeCast_self, shapeCast_self]
  show matmul dot_S400x10000_S10000x16_S400x16_1_0_0_1_n_n none
          (shapeCast S400x10000 x0 shapeCasts_S1x400x10000_S400x10000 : FVec Ideal S400x10000 .f32) (x1 : FVec Ideal S10000x16 .f32)
            (constant (F := Ideal) S400x16 .f32 0x00000000#32) (ix2 p l)
        + broadcastTo S400x16 x2 broadcasts_S1x16_S400x16 (ix2 p l) = _
  congr 1
  · refine (DenseLayer.matmul_rows_apply dot_S400x10000_S10000x16_S400x16_1_0_0_1_n_n_wf none
      (shapeCast S400x10000 x0 shapeCasts_S1x400x10000_S400x10000 : FVec Ideal S400x10000 .f32) (x1 : FVec Ideal S10000x16 .f32) p l).trans ?_
    refine Finset.sum_congr rfl fun k _ => ?_
    exact congrArg (· * x1 (ix2 k l)) (shapeCast_1ab_ab_apply x0 shapeCasts_S1x400x10000_S400x10000 p k)
  · exact broadcastTo_1b_ab_apply x2 broadcasts_S1x16_S400x16 p l

/-- The second body's stored value at (p, j), from a block of 400 adjacency rows, S, the bias row and W. -/
theorem pay1_apply (x0 : Vec Ideal S1x400x10000 .f32) (x1 : Vec Ideal S10000x16 .f32) (x2 : Vec Ideal S1x16 .f32)
    (x3 : Vec Ideal S16x16 .f32) (p : Fin 400) (j : Fin 16) :
    k1_pay1 (F := Ideal) x0 x1 x2 x3 (ix2 p j)
      = ∑ l : Fin 16, max (∑ k : Fin 10000, x0 (ix3 (0 : Fin 1) p k) * x1 (ix2 k l) + x2 (ix2 (0 : Fin 1) l)) Gcn.zeroWord
          * x3 (ix2 l j) := by
  unfold k1_pay1
  refine (DenseLayer.matmul_rows_apply dot_S400x16_S16x16_S400x16_1_0_0_1_n_n_wf none
    (maximumf (affine x0 x1 x2) (broadcast S400x16 (Scalar.ofBits (F := Ideal) .f32 0x00000000#32)) : FVec Ideal S400x16 .f32)
    (x3 : FVec Ideal S16x16 .f32) p j).trans ?_
  refine Finset.sum_congr rfl fun l _ => ?_
  exact congrArg (fun t => max t Gcn.zeroWord * x3 (ix2 l j)) (affine_apply x0 x1 x2 p l)

/-- The row maxima of the affine part. -/
def rowMaxV (x0 : Vec Ideal S1x400x10000 .f32) (x1 : Vec Ideal S10000x16 .f32) (x2 : Vec Ideal S1x16 .f32) :
    FVec Ideal S400 .f32 :=
  multiReduction .maximumf [1] S400 (affine x0 x1 x2) 0xFF800000#32 reduces_S400x16_S400 (.inl rfl) rfl

/-- The affine part with each row's maximum taken off. -/
def shifted (x0 : Vec Ideal S1x400x10000 .f32) (x1 : Vec Ideal S10000x16 .f32) (x2 : Vec Ideal S1x16 .f32) :
    FVec Ideal S400x16 .f32 :=
  subf (affine x0 x1 x2)
    (broadcastTo S400x16 (shapeCast S400x1 (rowMaxV x0 x1 x2) shapeCasts_S400_S400x1 : FVec Ideal S400x1 .f32)
      broadcasts_S400x1_S400x16)

/-- The maximum of row p of block·S + b is the fold of max, from the word of −∞, over the row's entries. -/
theorem rowMaxV_apply (x0 : Vec Ideal S1x400x10000 .f32) (x1 : Vec Ideal S10000x16 .f32) (x2 : Vec Ideal S1x16 .f32)
    (p : Fin 400) :
    rowMaxV x0 x1 x2 (ix1 p)
      = Gcn.rowMax (fun l => ∑ k : Fin 10000, x0 (ix3 (0 : Fin 1) p k) * x1 (ix2 k l) + x2 (ix2 (0 : Fin 1) l)) := by
  unfold rowMaxV
  refine (RowOps.multiReduction_maximumf_row (affine x0 x1 x2) 0xFF800000#32 reduces_S400x16_S400 (.inl rfl) rfl p).trans ?_
  unfold Gcn.rowMax Gcn.negInfWord
  exact congrArg (fun f : Fin 16 → EReal => (Finset.univ : Finset (Fin 16)).fold max (Ideal.ofBits .f32 0xFF800000#32) f)
    (funext fun l => affine_apply x0 x1 x2 p l)

/-- At (p, c) the shifted array is the entry of block·S + b less its row's maximum. -/
theorem shifted_apply (x0 : Vec Ideal S1x400x10000 .f32) (x1 : Vec Ideal S10000x16 .f32) (x2 : Vec Ideal S1x16 .f32)
    (p : Fin 400) (c : Fin 16) :
    shifted x0 x1 x2 (ix2 p c)
      = (∑ k : Fin 10000, x0 (ix3 (0 : Fin 1) p k) * x1 (ix2 k c) + x2 (ix2 (0 : Fin 1) c))
        - Gcn.rowMax (fun l => ∑ k : Fin 10000, x0 (ix3 (0 : Fin 1) p k) * x1 (ix2 k l) + x2 (ix2 (0 : Fin 1) l)) := by
  unfold shifted
  show affine x0 x1 x2 (ix2 p c)
      - broadcastTo S400x16 (shapeCast S400x1 (rowMaxV x0 x1 x2) shapeCasts_S400_S400x1 : FVec Ideal S400x1 .f32)
          broadcasts_S400x1_S400x16 (ix2 p c) = _
  rw [affine_apply, RowOps.broadcastTo_a1_ab_apply, RowOps.shapeCast_a_a1_apply, rowMaxV_apply]

/-- The third body's stored value at (p, j): the logSoftmax of row p of block·S + b. -/
theorem pay2_apply (x0 : Vec Ideal S1x400x10000 .f32) (x1 : Vec Ideal S10000x16 .f32) (x2 : Vec Ideal S1x16 .f32)
    (p : Fin 400) (j : Fin 16) :
    k2_pay1 (F := Ideal) x0 x1 x2 (ix2 p j)
      = Gcn.logSoftmax (fun l => ∑ k : Fin 10000, x0 (ix3 (0 : Fin 1) p k) * x1 (ix2 k l) + x2 (ix2 (0 : Fin 1) l)) j := by
  unfold k2_pay1
  show shifted x0 x1 x2 (ix2 p j)
      - broadcastTo S400x16
          (log (shapeCast S400x1
            (multiReduction .add [1] S400 (exp (shifted x0 x1 x2)) 0x00000000#32 reduces_S400x16_S400 (.inl rfl) rfl)
            shapeCasts_S400_S400x1 : FVec Ideal S400x1 .f32))
          broadcasts_S400x1_S400x16 (ix2 p j) = _
  rw [RowOps.broadcastTo_a1_ab_apply]
  show shifted x0 x1 x2 (ix2 p j)
      - Ideal.log (shapeCast S400x1
            (multiReduction .add [1] S400 (exp (shifted x0 x1 x2)) 0x00000000#32 reduces_S400x16_S400 (.inl rfl) rfl)
            shapeCasts_S400_S400x1 (ix2 p (0 : Fin 1))) = _
  rw [RowOps.shapeCast_a_a1_apply]
  unfold Gcn.logSoftmax
  refine congrArg₂ (· - ·) (shifted_apply x0 x1 x2 p j) (congrArg Ideal.log ?_)
  refine (RowOps.multiReduction_add_row (exp (shifted x0 x1 x2)) 0x00000000#32 reduces_S400x16_S400 (.inl rfl) rfl p).trans ?_
  refine Finset.sum_congr rfl fun l _ => ?_
  exact congrArg Ideal.exp (shifted_apply x0 x1 x2 p l)

end Cert.KernelIdeal.Payloads

end
-- ==== Proof.KernelArrays.lean ====
/-
  What each of the three kernel regions leaves in its output array, as one function of the arrays the region finds.

  Region 0 is a single point over whole arrays: it leaves X·W₁. Regions 1 and 2 walk 25 points; point t reads rows
  400·t … 400·t + 399 of one adjacency slab (slab 0 in region 1, slab 1 in region 2) together with the whole of the small
  operands, and writes rows 400·t … 400·t + 399 of its output. Every entry the body stores depends only on its own row
  of the slab, so what point t writes back is block t of one whole-array function: relu(A₀·S + b)·W in region 1, the
  row-wise logSoftmax of A₁·S + b in region 2. Row r lies in the block of point r / 400, so the 25 blocks cover the
  array and after the region the array is that function.
-/
import proofs.«149314_g61306363183712_cont_9to1c4b_794_4_alg».proof.Proof.Gen.KernelIdeal.Frame
import proofs.«149314_g61306363183712_cont_9to1c4b_794_4_alg».proof.Proof.Payloads
import proofs.«149314_g61306363183712_cont_9to1c4b_794_4_alg».proof.Proof.Spec
import Idealize.ShloMosaic.Lib.Pipeline.Value
import Idealize.ShloMosaic.Lib.ValueIdx

noncomputable section

namespace Cert.KernelIdeal.Arrays

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A one-row matrix read as a vector. -/
def rowOf (x : Vec Ideal S1x16 .f32) : Gcn.Row 16 := fun i => x (ix2 (0 : Fin 1) (i 0))

/-! ## Region 0: X·W₁, in one piece -/

theorem flushed0 (c : Dev nD) (t : Fin cfg0.N) :
    (dat0 V c).flushed 2 t = ((cfg0.win 2).blk t).view.read (Elt Ideal) (Gcn.feat (V c main_arg0) (V c main_arg2)) := by
  show (cfg0.win 2).cut (grid0.coords t) ((dat0 V c).after 2 t) = _
  rw [after0_2]
  unfold out0_2
  rw [View.canon_unit_zero hz2]
  simp only [View.ld_unit_zero (S := S10000x128) hz2, View.ld_unit_zero (S := S128x16) hz2]
  funext j
  obtain ⟨r, q, rfl⟩ : ∃ (r : Fin 10000) (q : Fin 16), j = ix2 r q := ⟨j 0, j 1, eq_ix2 j⟩
  refine (pay0_apply (iblk0 V c 0 t) (iblk0 V c 1 t) r q).trans ?_
  show _ = Gcn.feat (V c main_arg0) (V c main_arg2) (((cfg0.win 2).blk t).view.emb (ix2 r q))
  have eout : ((cfg0.win 2).blk t).view.emb (ix2 r q) = ix2 r q := by
    funext a; apply Fin.ext
    match a with
    | ⟨0, _⟩ => show 0 * 10000 + 1 * r.val = r.val; omega
    | ⟨1, _⟩ => show 0 * 16 + 1 * q.val = q.val; omega
  rw [eout]
  unfold Gcn.feat
  refine Finset.sum_congr rfl fun l _ => ?_
  have e0 : iblk0 V c 0 t (ix2 r l) = V c main_arg0 (ix2 r l) := by
    show V c main_arg0 (((cfg0.win 0).blk t).view.emb (ix2 r l)) = _
    refine congrArg _ ?_
    funext a; apply Fin.ext
    match a with
    | ⟨0, _⟩ => show 0 * 10000 + 1 * r.val = r.val; omega
    | ⟨1, _⟩ => show 0 * 128 + 1 * l.val = l.val; omega
  have e1 : iblk0 V c 1 t (ix2 l q) = V c main_arg2 (ix2 l q) := by
    show V c main_arg2 (((cfg0.win 1).blk t).view.emb (ix2 l q)) = _
    refine congrArg _ ?_
    funext a; apply Fin.ext
    match a with
    | ⟨0, _⟩ => show 0 * 128 + 1 * l.val = l.val; omega
    | ⟨1, _⟩ => show 0 * 16 + 1 * q.val = q.val; omega
  rw [e0, e1]

theorem cover0 (i : S10000x16.Idx) :
    ∃ t : Fin cfg0.N, (cfg0.win 2).flush t = true ∧ i ∈ ((cfg0.win 2).blk t).view.set := by
  refine ⟨t0_0, flush0_2 _, ?_⟩
  show i ∈ ((View.whole main_call0_v0).slice (win0_2.rect t0_0)).set
  rw [View.set_slice_whole, Rect.mem_set_unit]
  intro a
  have hi0 : (i 0).val < 10000 := (i 0).isLt
  have hi1 : (i 1).val < 16 := (i 1).isLt
  match a with
  | ⟨0, _⟩ => show 0 * 10000 ≤ (i 0).val ∧ (i 0).val < 0 * 10000 + 10000; omega
  | ⟨1, _⟩ => show 0 * 16 ≤ (i 1).val ∧ (i 1).val < 0 * 16 + 16; omega

/-- After region 0 its output array holds X·W₁ of the arrays as the region finds them. -/
theorem final0 (c : Dev nD) : (dat0 V c).arrAt 2 cfg0.N = Gcn.feat (V c main_arg0) (V c main_arg2) :=
  (dat0 V c).arrAt_eq_of_cover 2 _ (fun t _ => flushed0 V c t) cover0

/-! ## Region 1: relu(A₀·S + b)·W, 400 rows at a time -/

theorem idx1 : ∀ t : Fin cfg1.N, win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt1 (t : Fin cfg1.N) : t.val < 25 := lt_of_lt_of_eq t.isLt N_1

/-- Row p of the block of 400 rows that grid point n handles. -/
def rowAt (n : ℕ) (hn : n < 25) (p : Fin 400) : Fin 10000 := ⟨n * 400 + p.val, by have := p.isLt; omega⟩

theorem blk1_0 (c : Dev nD) (t : Fin cfg1.N) (p : Fin 400) (k : Fin 10000) :
    iblk1 V c 0 t (ix3 (0 : Fin 1) p k) = V c main_arg1 (ix3 (0 : Fin 2) (rowAt t.val (lt1 t) p) k) := by
  obtain ⟨e0, e1, e2, -⟩ := idx1 t
  show V c main_arg1 (((cfg1.win 0).blk t).view.emb (ix3 (0 : Fin 1) p k)) = _
  refine congrArg _ ?_
  funext a; apply Fin.ext
  match a with
  | ⟨0, _⟩ => show win1_0.index t (0 : Fin 3) * 1 + 1 * 0 = 0; omega
  | ⟨1, _⟩ => show win1_0.index t (1 : Fin 3) * 400 + 1 * p.val = t.val * 400 + p.val; omega
  | ⟨2, _⟩ => show win1_0.index t (2 : Fin 3) * 10000 + 1 * k.val = k.val; omega

theorem blk1_1 (c : Dev nD) (t : Fin cfg1.N) (k : Fin 10000) (l : Fin 16) :
    iblk1 V c 1 t (ix2 k l) = V c main_call0_v0 (ix2 k l) := by
  obtain ⟨-, -, -, e3, e4, -⟩ := idx1 t
  show V c main_call0_v0 (((cfg1.win 1).blk t).view.emb (ix2 k l)) = _
  refine congrArg _ ?_
  funext a; apply Fin.ext
  match a with
  | ⟨0, _⟩ => show win1_1.index t (0 : Fin 2) * 10000 + 1 * k.val = k.val; omega
  | ⟨1, _⟩ => show win1_1.index t (1 : Fin 2) * 16 + 1 * l.val = l.val; omega

theorem blk1_2 (c : Dev nD) (t : Fin cfg1.N) (l : Fin 16) :
    iblk1 V c 2 t (ix2 (0 : Fin 1) l) = rowOf (V c main_call0_v1) (ix1 l) := by
  obtain ⟨-, -, -, -, -, e5, e6, -⟩ := idx1 t
  show V c main_call0_v1 (((cfg1.win 2).blk t).view.emb (ix2 (0 : Fin 1) l)) = V c main_call0_v1 (ix2 (0 : Fin 1) l)
  refine congrArg _ ?_
  funext a; apply Fin.ext
  match a with
  | ⟨0, _⟩ => show win1_2.index t (0 : Fin 2) * 1 + 1 * 0 = 0; omega
  | ⟨1, _⟩ => show win1_2.index t (1 : Fin 2) * 16 + 1 * l.val = l.val; omega

theorem blk1_3 (c : Dev nD) (t : Fin cfg1.N) (l : Fin 16) (q : Fin 16) :
    iblk1 V c 3 t (ix2 l q) = V c main_arg4 (ix2 l q) := by
  obtain ⟨-, -, -, -, -, -, -, e7, e8, -⟩ := idx1 t
  show V c main_arg4 (((cfg1.win 3).blk t).view.emb (ix2 l q)) = _
  refine congrArg _ ?_
  funext a; apply Fin.ext
  match a with
  | ⟨0, _⟩ => show win1_3.index t (0 : Fin 2) * 16 + 1 * l.val = l.val; omega
  | ⟨1, _⟩ => show win1_3.index t (1 : Fin 2) * 16 + 1 * q.val = q.val; omega

theorem out1_emb (t : Fin cfg1.N) (p : Fin 400) (q : Fin 16) :
    ((cfg1.win 4).blk t).view.emb (ix2 p q) = ix2 (rowAt t.val (lt1 t) p) q := by
  obtain ⟨-, -, -, -, -, -, -, -, -, e9, e10⟩ := idx1 t
  funext a; apply Fin.ext
  match a with
  | ⟨0, _⟩ => show win1_4.index t (0 : Fin 2) * 400 + 1 * p.val = t.val * 400 + p.val; omega
  | ⟨1, _⟩ => show win1_4.index t (1 : Fin 2) * 16 + 1 * q.val = q.val; omega

/-- What point t writes back is block t of relu(A₀·S + b)·W of the arrays as the region finds them. -/
theorem flushed1 (c : Dev nD) (t : Fin cfg1.N) :
    (dat1 V c).flushed 4 t = ((cfg1.win 4).blk t).view.read (Elt Ideal)
      (Gcn.hidden (V c main_arg1) (V c main_call0_v0) (rowOf (V c main_call0_v1)) (V c main_arg4)) := by
  show (cfg1.win 4).cut (grid1.coords t) ((dat1 V c).after 4 t) = _
  rw [after1_4]
  unfold out1_4
  rw [View.canon_unit_zero hz2]
  simp only [View.ld_unit_zero (S := S1x400x10000) hz3, View.ld_unit_zero (S := S10000x16) hz2,
    View.ld_unit_zero (S := S1x16) hz2, View.ld_unit_zero (S := S16x16) hz2]
  funext j
  obtain ⟨p, q, rfl⟩ : ∃ (p : Fin 400) (q : Fin 16), j = ix2 p q := ⟨j 0, j 1, eq_ix2 j⟩
  refine (pay1_apply (iblk1 V c 0 t) (iblk1 V c 1 t) (iblk1 V c 2 t) (iblk1 V c 3 t) p q).trans ?_
  show _ = Gcn.hidden (V c main_arg1) (V c main_call0_v0) (rowOf (V c main_call0_v1)) (V c main_arg4)
    (((cfg1.win 4).blk t).view.emb (ix2 p q))
  rw [out1_emb]
  unfold Gcn.hidden Gcn.prop
  refine Finset.sum_congr rfl fun l _ => ?_
  rw [blk1_3, blk1_2]
  refine congrArg (fun z => max (z + rowOf (V c main_call0_v1) (ix1 l)) Gcn.zeroWord * V c main_arg4 (ix2 l q)) ?_
  refine Finset.sum_congr rfl fun k _ => ?_
  rw [blk1_0, blk1_1]

theorem mem_blk1 (t : Fin cfg1.N) (i : S10000x16.Idx) :
    i ∈ ((cfg1.win 4).blk t).view.set ↔ ∀ a : Fin 2, win1_4.index t a * S400x16.size a ≤ (i a).val
      ∧ (i a).val < win1_4.index t a * S400x16.size a + S400x16.size a := by
  show i ∈ ((View.whole main_call0_v2).slice (win1_4.rect t)).set ↔ _
  rw [View.set_slice_whole, Rect.mem_set_unit]
  exact Iff.rfl

/-- Row r lies in the block of point r / 400. -/
theorem cover1 (i : S10000x16.Idx) :
    ∃ t : Fin cfg1.N, (cfg1.win 4).flush t = true ∧ i ∈ ((cfg1.win 4).blk t).view.set := by
  have hi0 : (i 0).val < 10000 := (i 0).isLt
  have hi1 : (i 1).val < 16 := (i 1).isLt
  have hN : (i 0).val / 400 < cfg1.N := lt_of_lt_of_eq (by omega : (i 0).val / 400 < 25) N_1.symm
  obtain ⟨-, -, -, -, -, -, -, -, -, e9, e10⟩ := idx1 ⟨(i 0).val / 400, hN⟩
  refine ⟨⟨(i 0).val / 400, hN⟩, flush1_4 _, ?_⟩
  rw [mem_blk1]
  intro a
  match a with
  | ⟨0, _⟩ =>
    show win1_4.index ⟨(i 0).val / 400, hN⟩ (0 : Fin 2) * 400 ≤ (i 0).val
      ∧ (i 0).val < win1_4.index ⟨(i 0).val / 400, hN⟩ (0 : Fin 2) * 400 + 400
    rw [e9]; show (i 0).val / 400 * 400 ≤ (i 0).val ∧ (i 0).val < (i 0).val / 400 * 400 + 400; omega
  | ⟨1, _⟩ =>
    show win1_4.index ⟨(i 0).val / 400, hN⟩ (1 : Fin 2) * 16 ≤ (i 1).val
      ∧ (i 1).val < win1_4.index ⟨(i 0).val / 400, hN⟩ (1 : Fin 2) * 16 + 16
    rw [e10]; omega

/-- After region 1 its output array holds relu(A₀·S + b)·W of the arrays as the region finds them. -/
theorem final1 (c : Dev nD) : (dat1 V c).arrAt 4 cfg1.N
    = Gcn.hidden (V c main_arg1) (V c main_call0_v0) (rowOf (V c main_call0_v1)) (V c main_arg4) :=
  (dat1 V c).arrAt_eq_of_cover 4 _ (fun t _ => flushed1 V c t) cover1

/-! ## Region 2: logSoftmax of the rows of A₁·S + b, 400 rows at a time -/

theorem idx2 : ∀ t : Fin cfg2.N, win2_0.index t (0 : Fin 3) = 1 ∧ win2_0.index t (1 : Fin 3) = t.val ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt2 (t : Fin cfg2.N) : t.val < 25 := lt_of_lt_of_eq t.isLt N_2

theorem blk2_0 (c : Dev nD) (t : Fin cfg2.N) (p : Fin 400) (k : Fin 10000) :
    iblk2 V c 0 t (ix3 (0 : Fin 1) p k) = V c main_arg1 (ix3 (1 : Fin 2) (rowAt t.val (lt2 t) p) k) := by
  obtain ⟨e0, e1, e2, -⟩ := idx2 t
  show V c main_arg1 (((cfg2.win 0).blk t).view.emb (ix3 (0 : Fin 1) p k)) = _
  refine congrArg _ ?_
  funext a; apply Fin.ext
  match a with
  | ⟨0, _⟩ => show win2_0.index t (0 : Fin 3) * 1 + 1 * 0 = 1; omega
  | ⟨1, _⟩ => show win2_0.index t (1 : Fin 3) * 400 + 1 * p.val = t.val * 400 + p.val; omega
  | ⟨2, _⟩ => show win2_0.index t (2 : Fin 3) * 10000 + 1 * k.val = k.val; omega

theorem blk2_1 (c : Dev nD) (t : Fin cfg2.N) (k : Fin 10000) (l : Fin 16) :
    iblk2 V c 1 t (ix2 k l) = V c main_call0_v2 (ix2 k l) := by
  obtain ⟨-, -, -, e3, e4, -⟩ := idx2 t
  show V c main_call0_v2 (((cfg2.win 1).blk t).view.emb (ix2 k l)) = _
  refine congrArg _ ?_
  funext a; apply Fin.ext
  match a with
  | ⟨0, _⟩ => show win2_1.index t (0 : Fin 2) * 10000 + 1 * k.val = k.val; omega
  | ⟨1, _⟩ => show win2_1.index t (1 : Fin 2) * 16 + 1 * l.val = l.val; omega

theorem blk2_2 (c : Dev nD) (t : Fin cfg2.N) (l : Fin 16) :
    iblk2 V c 2 t (ix2 (0 : Fin 1) l) = rowOf (V c main_call0_v3) (ix1 l) := by
  obtain ⟨-, -, -, -, -, e5, e6, -⟩ := idx2 t
  show V c main_call0_v3 (((cfg2.win 2).blk t).view.emb (ix2 (0 : Fin 1) l)) = V c main_call0_v3 (ix2 (0 : Fin 1) l)
  refine congrArg _ ?_
  funext a; apply Fin.ext
  match a with
  | ⟨0, _⟩ => show win2_2.index t (0 : Fin 2) * 1 + 1 * 0 = 0; omega
  | ⟨1, _⟩ => show win2_2.index t (1 : Fin 2) * 16 + 1 * l.val = l.val; omega

theorem out2_emb (t : Fin cfg2.N) (p : Fin 400) (q : Fin 16) :
    ((cfg2.win 3).blk t).view.emb (ix2 p q) = ix2 (rowAt t.val (lt2 t) p) q := by
  obtain ⟨-, -, -, -, -, -, -, e7, e8⟩ := idx2 t
  funext a; apply Fin.ext
  match a with
  | ⟨0, _⟩ => show win2_3.index t (0 : Fin 2) * 400 + 1 * p.val = t.val * 400 + p.val; omega
  | ⟨1, _⟩ => show win2_3.index t (1 : Fin 2) * 16 + 1 * q.val = q.val; omega

/-- What point t writes back is block t of the row-wise logSoftmax of A₁·S + b of the arrays as the region finds them. -/
theorem flushed2 (c : Dev nD) (t : Fin cfg2.N) :
    (dat2 V c).flushed 3 t = ((cfg2.win 3).blk t).view.read (Elt Ideal)
      (Gcn.scores (V c main_arg1) (V c main_call0_v2) (rowOf (V c main_call0_v3))) := by
  show (cfg2.win 3).cut (grid2.coords t) ((dat2 V c).after 3 t) = _
  rw [after2_3]
  unfold out2_3
  rw [View.canon_unit_zero hz2]
  simp only [View.ld_unit_zero (S := S1x400x10000) hz3, View.ld_unit_zero (S := S10000x16) hz2,
    View.ld_unit_zero (S := S1x16) hz2]
  funext j
  obtain ⟨p, q, rfl⟩ : ∃ (p : Fin 400) (q : Fin 16), j = ix2 p q := ⟨j 0, j 1, eq_ix2 j⟩
  refine (pay2_apply (iblk2 V c 0 t) (iblk2 V c 1 t) (iblk2 V c 2 t) p q).trans ?_
  show _ = Gcn.scores (V c main_arg1) (V c main_call0_v2) (rowOf (V c main_call0_v3))
    (((cfg2.win 3).blk t).view.emb (ix2 p q))
  rw [out2_emb]
  unfold Gcn.scores Gcn.prop
  refine congrArg (fun g : Fin 16 → EReal => Gcn.logSoftmax g q) (funext fun l => ?_)
  rw [blk2_2]
  refine congrArg (fun z => z + rowOf (V c main_call0_v3) (ix1 l)) ?_
  refine Finset.sum_congr rfl fun k _ => ?_
  rw [blk2_0, blk2_1]

theorem mem_blk2 (t : Fin cfg2.N) (i : S10000x16.Idx) :
    i ∈ ((cfg2.win 3).blk t).view.set ↔ ∀ a : Fin 2, win2_3.index t a * S400x16.size a ≤ (i a).val
      ∧ (i a).val < win2_3.index t a * S400x16.size a + S400x16.size a := by
  show i ∈ ((View.whole main_v0).slice (win2_3.rect t)).set ↔ _
  rw [View.set_slice_whole, Rect.mem_set_unit]
  exact Iff.rfl

theorem cover2 (i : S10000x16.Idx) :
    ∃ t : Fin cfg2.N, (cfg2.win 3).flush t = true ∧ i ∈ ((cfg2.win 3).blk t).view.set := by
  have hi0 : (i 0).val < 10000 := (i 0).isLt
  have hi1 : (i 1).val < 16 := (i 1).isLt
  have hN : (i 0).val / 400 < cfg2.N := lt_of_lt_of_eq (by omega : (i 0).val / 400 < 25) N_2.symm
  obtain ⟨-, -, -, -, -, -, -, e7, e8⟩ := idx2 ⟨(i 0).val / 400, hN⟩
  refine ⟨⟨(i 0).val / 400, hN⟩, flush2_3 _, ?_⟩
  rw [mem_blk2]
  intro a
  match a with
  | ⟨0, _⟩ =>
    show win2_3.index ⟨(i 0).val / 400, hN⟩ (0 : Fin 2) * 400 ≤ (i 0).val
      ∧ (i 0).val < win2_3.index ⟨(i 0).val / 400, hN⟩ (0 : Fin 2) * 400 + 400
    rw [e7]; show (i 0).val / 400 * 400 ≤ (i 0).val ∧ (i 0).val < (i 0).val / 400 * 400 + 400; omega
  | ⟨1, _⟩ =>
    show win2_3.index ⟨(i 0).val / 400, hN⟩ (1 : Fin 2) * 16 ≤ (i 1).val
      ∧ (i 1).val < win2_3.index ⟨(i 0).val / 400, hN⟩ (1 : Fin 2) * 16 + 16
    rw [e8]; omega

/-- After region 2 its output array holds the row-wise logSoftmax of A₁·S + b of the arrays as the region finds them. -/
theorem final2 (c : Dev nD) : (dat2 V c).arrAt 3 cfg2.N
    = Gcn.scores (V c main_arg1) (V c main_call0_v2) (rowOf (V c main_call0_v3)) :=
  (dat2 V c).arrAt_eq_of_cover 3 _ (fun t _ => flushed2 V c t) cover2

end Cert.KernelIdeal.Arrays

end
-- ==== Proof.KernelThrough.lean ====
/-
  The kernel program's result, read through its five segments.

  The program is three kernel regions with one host operation between each pair: region 0 computes X·W₁; the first bias
  vector is recast as one row; region 1 computes relu(A₀·(X·W₁) + b₁)·W₂; the second bias vector is recast as one row;
  region 2 computes the row-wise logSoftmax of A₁·(that) + b₂. At each boundary the buffers are what the segment before
  left: a region changes only its output array (its inputs it only reads), a host operation only its result. Walking the
  boundaries back from the result therefore composes the three whole-array functions into the network of the launch
  arguments, a recast bias row read back as the vector it came from.
-/
import proofs.«149314_g61306363183712_cont_9to1c4b_794_4_alg».proof.Proof.KernelArrays
import proofs.«149314_g61306363183712_cont_9to1c4b_794_4_alg».proof.Proof.KernelRun
import Idealize.ShloMosaic.Lib.ValueLayout
import Idealize.ShloMosaic.Lib.StableHlo.Run

set_option maxRecDepth 16384

noncomputable section

namespace Cert.KernelIdeal.Through

open Cert.KernelIdeal Cert.KernelIdeal.Gen Cert.KernelIdeal.Arrays
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Buffers a host stretch or a region leaves alone -/

/-- The stretch between regions 0 and 1 writes only the first bias row. -/
theorem W2_keep (c : Dev nD) (b : Ref sig .tc) (hb : b ≠ main_call0_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The stretch between regions 1 and 2 writes only the second bias row. -/
theorem W4_keep (c : Dev nD) (b : Ref sig .tc) (hb : b ≠ main_call0_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem W1_arg1 (c : Dev nD) : W1 m ρ c (Proc.devRef .tc main_arg1) = m ((c : Thread nD τ).loc main_arg1) :=
  W1_of_ne m ρ c main_arg1 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

theorem W2_arg1 (c : Dev nD) : W2 m ρ c (Proc.devRef .tc main_arg1) = m ((c : Thread nD τ).loc main_arg1) :=
  (W2_keep m ρ c main_arg1 (by decide)).trans (W1_arg1 m ρ c)
theorem W2_arg4 (c : Dev nD) : W2 m ρ c (Proc.devRef .tc main_arg4) = m ((c : Thread nD τ).loc main_arg4) :=
  (W2_keep m ρ c main_arg4 (by decide)).trans (W1_arg4 m ρ c)

/-- Region 1 only reads the adjacency. -/
theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_keep m ρ c main_arg5 (by decide)
    _ = m ((c : Thread nD τ).loc main_arg5) := W1_arg5 m ρ c

theorem W4_arg1 (c : Dev nD) : W4 m ρ c (Proc.devRef .tc main_arg1) = m ((c : Thread nD τ).loc main_arg1) :=
  (W4_keep m ρ c main_arg1 (by decide)).trans (W3_arg1 m ρ c)

/-! ## The two bias rows: each bias vector recast as one row -/

theorem W2_bias (c : Dev nD) : W2 m ρ c (Proc.devRef .tc main_call0_v1)
    = shapeCast S1x16 (m ((c : Thread nD τ).loc main_arg3)) shapeCasts_S16_S1x16 := by
  show StableHlo.after hostOps1 (W1 m ρ c) (Proc.devRef .tc main_call0_v1) = _
  after_results
  show (fun i => shapeCast S1x16 (W1 m ρ c (Proc.devRef .tc main_arg3)) shapeCasts_S16_S1x16 i) = _
  rw [W1_arg3]

theorem W4_bias (c : Dev nD) : W4 m ρ c (Proc.devRef .tc main_call0_v3)
    = shapeCast S1x16 (m ((c : Thread nD τ).loc main_arg5)) shapeCasts_S16_S1x16 := by
  show StableHlo.after hostOps2 (W3 m ρ c) (Proc.devRef .tc main_call0_v3) = _
  after_results
  show (fun i => shapeCast S1x16 (W3 m ρ c (Proc.devRef .tc main_arg5)) shapeCasts_S16_S1x16 i) = _
  rw [W3_arg5]

/-- A vector recast as one row and read back as a vector is the vector. -/
theorem rowOf_cast (v : Vec Ideal S16 .f32) : rowOf (shapeCast S1x16 v shapeCasts_S16_S1x16) = v := by
  funext i
  obtain ⟨l, rfl⟩ : ∃ l : Fin 16, i = ix1 l := ⟨i 0, eq_ix1 i⟩
  show shapeCast S1x16 v shapeCasts_S16_S1x16 (ix2 (0 : Fin 1) l) = v (ix1 l)
  exact shapeCast_a_1a_apply v shapeCasts_S16_S1x16 (0 : Fin 1) l

/-! ## The three layers, one after the other -/

/-- After region 0 its output holds X·W₁ of the launch arguments. -/
theorem feat_at (c : Dev nD) : W1 m ρ c (Proc.devRef .tc main_call0_v0)
    = Gcn.feat (m ((c : Thread nD τ).loc main_arg0)) (m ((c : Thread nD τ).loc main_arg2)) :=
  (W1_arr m ρ c 2).trans (final0 (V0 m ρ) c)

/-- After region 1 its output holds relu(A₀·(X·W₁) + b₁)·W₂ of the launch arguments. -/
theorem hidden_at (c : Dev nD) : W3 m ρ c (Proc.devRef .tc main_call0_v2)
    = Gcn.hidden (m ((c : Thread nD τ).loc main_arg1))
        (Gcn.feat (m ((c : Thread nD τ).loc main_arg0)) (m ((c : Thread nD τ).loc main_arg2)))
        (m ((c : Thread nD τ).loc main_arg3)) (m ((c : Thread nD τ).loc main_arg4)) := by
  refine (W3_arr m ρ c 4).trans ?_
  rw [final1 (V2 m ρ) c]
  have h1 : V2 m ρ c main_arg1 = m ((c : Thread nD τ).loc main_arg1) := W2_arg1 m ρ c
  have h4 : V2 m ρ c main_arg4 = m ((c : Thread nD τ).loc main_arg4) := W2_arg4 m ρ c
  have h0 : V2 m ρ c main_call0_v0 = Gcn.feat (m ((c : Thread nD τ).loc main_arg0)) (m ((c : Thread nD τ).loc main_arg2)) :=
    (W2_keep m ρ c main_call0_v0 (by decide)).trans (feat_at m ρ c)
  have hb : V2 m ρ c main_call0_v1 = shapeCast S1x16 (m ((c : Thread nD τ).loc main_arg3)) shapeCasts_S16_S1x16 :=
    W2_bias m ρ c
  rw [h1, h4, h0, hb, rowOf_cast]

/-- After region 2 the result holds the whole network of the launch arguments. -/
theorem result_at (c : Dev nD) : W5 m ρ c (Proc.devRef .tc main_v0)
    = Gcn.gcn (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (W5_arr m ρ c 3).trans ?_
  rw [final2 (V4 m ρ) c]
  have h1 : V4 m ρ c main_arg1 = m ((c : Thread nD τ).loc main_arg1) := W4_arg1 m ρ c
  have h2 : V4 m ρ c main_call0_v2 = Gcn.hidden (m ((c : Thread nD τ).loc main_arg1))
      (Gcn.feat (m ((c : Thread nD τ).loc main_arg0)) (m ((c : Thread nD τ).loc main_arg2)))
      (m ((c : Thread nD τ).loc main_arg3)) (m ((c : Thread nD τ).loc main_arg4)) :=
    (W4_keep m ρ c main_call0_v2 (by decide)).trans (hidden_at m ρ c)
  have hb : V4 m ρ c main_call0_v3 = shapeCast S1x16 (m ((c : Thread nD τ).loc main_arg5)) shapeCasts_S16_S1x16 :=
    W4_bias m ρ c
  rw [h1, h2, hb, rowOf_cast]
  rfl

/-! ## The run, read -/

/-- Every weakly fair execution of the kernel program ends with the result at the network of the launch arguments and
    the arguments unchanged. -/
theorem run : θ_run defs (onTc (τ := τ) (main (F := Ideal))) ⟨m, fun _ => 0, ρ⟩ (fun r => ∀ c : Dev nD,
      r.2.mem ((c.tc : Thread nD τ).loc main_v0)
        = Gcn.gcn (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_at m ρ c), (h c).2⟩)
    (Cert.KernelIdeal.GenRun.run_named m ρ)

end Cert.KernelIdeal.Through

end
-- ==== Proof.ReferenceValue.lean ====
/-
  The reference, read operation by operation, is the two-layer graph convolution of the specification.

  Its three products are sums over the contracted coordinate; each adjacency slab is a slice of the stacked array recast
  as a matrix; each bias is laid along a row and repeated down the rows; relu compares with the word of 0; logSoftmax
  subtracts the row maximum (folded from the word of −∞, then compared once more with that word, which changes nothing),
  exponentiates, sums from the word of 0, takes the logarithm and subtracts.
-/
import proofs.«149314_g61306363183712_cont_9to1c4b_794_4_alg».proof.Proof.RefRead
import proofs.«149314_g61306363183712_cont_9to1c4b_794_4_alg».proof.Proof.Spec
import proofs.«149314_g61306363183712_cont_9to1c4b_794_4_alg».proof.Proof.LibDenseLayer
import proofs.«149314_g61306363183712_cont_9to1c4b_794_4_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.ReadP Idealize.ShloMosaic Idealize.ShloMosaic.ValueIdx

/-! ## The arguments' types, abbreviated -/

/-- The features, 10000×128. -/
abbrev X0 : Type := (⟨S10000x128, .f32⟩ : BufTy).Contents (Elt Ideal)
/-- The two adjacency slabs, 2×10000×10000. -/
abbrev X1 : Type := (⟨S2x10000x10000, .f32⟩ : BufTy).Contents (Elt Ideal)
/-- The first weights, 128×16. -/
abbrev X2 : Type := (⟨S128x16, .f32⟩ : BufTy).Contents (Elt Ideal)
/-- A bias, 16. -/
abbrev X3 : Type := (⟨S16, .f32⟩ : BufTy).Contents (Elt Ideal)
/-- The second weights, 16×16. -/
abbrev X4 : Type := (⟨S16x16, .f32⟩ : BufTy).Contents (Elt Ideal)

/-- The row maximum drops axis 1 of a 10000×16 matrix, leaving a vector of 10000. -/
theorem reduces_rows : S10000x16.Reduces [1] S10000 := by decide

/-! ## The first product: X·W₁ -/

/-- X·W₁ at (r, j). -/
theorem feat_at (x0 : X0) (x2 : X2) (r : Fin 10000) (j : Fin 16) :
    val_main_v0 (F := Ideal) x0 x2 (ix2 r j) = Gcn.feat x0 x2 (ix2 r j) := by
  rw [val_main_v0_apply]
  refine Finset.sum_congr rfl fun k _ => ?_
  have el : lidx_main_v0 (ix2 r j) k = ix2 r k :=
    funext fun a => by match a with | ⟨0, _⟩ => rfl | ⟨1, _⟩ => rfl
  have er : ridx_main_v0 (ix2 r j) k = ix2 k j :=
    funext fun a => by match a with | ⟨0, _⟩ => rfl | ⟨1, _⟩ => rfl
  rw [el, er]

/-! ## The adjacency slabs as matrices -/

/-- Slab 0 of the stacked adjacency, as a matrix, at (r, k). -/
theorem slab0_at (x1 : X1) (r k : Fin 10000) :
    val_main_v2 (F := Ideal) x1 (ix2 r k) = x1 (ix3 (0 : Fin 2) r k) := by
  rw [val_main_v2_apply, val_main_v1_apply]
  refine congrArg x1 (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- Slab 1 of the stacked adjacency, as a matrix, at (r, k). -/
theorem slab1_at (x1 : X1) (r k : Fin 10000) :
    val_main_v11 (F := Ideal) x1 (ix2 r k) = x1 (ix3 (1 : Fin 2) r k) := by
  rw [val_main_v11_apply, val_main_v10_apply]
  refine congrArg x1 (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-! ## The bias rows -/

/-- The first bias, laid along a row and repeated down the rows, at (r, j). -/
theorem bias1_at (x3 : X3) (r : Fin 10000) (j : Fin 16) :
    val_main_v5 (F := Ideal) x3 (ix2 r j) = x3 (ix1 j) := by
  rw [val_main_v5_apply, val_main_v4_apply]
  exact congrArg x3 (funext fun a => by match a with | ⟨0, _⟩ => rfl)

/-- The second bias, laid along a row and repeated down the rows, at (r, j). -/
theorem bias2_at (x5 : X3) (r : Fin 10000) (j : Fin 16) :
    val_main_v14 (F := Ideal) x5 (ix2 r j) = x5 (ix1 j) := by
  rw [val_main_v14_apply, val_main_v13_apply]
  exact congrArg x5 (funext fun a => by match a with | ⟨0, _⟩ => rfl)

/-! ## The first layer: relu(A₀·feat + b₁)·W₂ -/

/-- A₀·(X·W₁) + b₁ at (r, j) is the first propagation step. -/
theorem layer1_at (x0 : X0) (x1 : X1) (x2 : X2) (x3 : X3) (r : Fin 10000) (j : Fin 16) :
    val_main_v6 (F := Ideal) x0 x1 x2 x3 (ix2 r j) = Gcn.prop 0 x1 (Gcn.feat x0 x2) x3 r j := by
  show val_main_v3 (F := Ideal) x0 x1 x2 (ix2 r j) + val_main_v5 (F := Ideal) x3 (ix2 r j) = _
  rw [val_main_v3_apply, bias1_at]
  unfold Gcn.prop
  refine congrArg (· + x3 (ix1 j)) (Finset.sum_congr rfl fun k _ => ?_)
  have el : lidx_main_v3 (ix2 r j) k = ix2 r k :=
    funext fun a => by match a with | ⟨0, _⟩ => rfl | ⟨1, _⟩ => rfl
  have er : ridx_main_v3 (ix2 r j) k = ix2 k j :=
    funext fun a => by match a with | ⟨0, _⟩ => rfl | ⟨1, _⟩ => rfl
  rw [el, er, slab0_at, feat_at]

/-- relu of the first propagation step at (r, l): the maximum with the word of 0. -/
theorem relu_at (x0 : X0) (x1 : X1) (x2 : X2) (x3 : X3) (r : Fin 10000) (l : Fin 16) :
    val_main_v8 (F := Ideal) x0 x1 x2 x3 (ix2 r l) = max (Gcn.prop 0 x1 (Gcn.feat x0 x2) x3 r l) Gcn.zeroWord := by
  show max (val_main_v6 (F := Ideal) x0 x1 x2 x3 (ix2 r l)) (val_main_v7 (F := Ideal) (ix2 r l)) = _
  rw [layer1_at, val_main_v7_apply]
  rfl

/-- relu(A₀·feat + b₁)·W₂ at (r, j). -/
theorem hidden_at (x0 : X0) (x1 : X1) (x2 : X2) (x3 : X3) (x4 : X4) (r : Fin 10000) (j : Fin 16) :
    val_main_v9 (F := Ideal) x0 x1 x2 x3 x4 (ix2 r j) = Gcn.hidden x1 (Gcn.feat x0 x2) x3 x4 (ix2 r j) := by
  rw [val_main_v9_apply]
  refine Finset.sum_congr rfl fun l _ => ?_
  have el : lidx_main_v9 (ix2 r j) l = ix2 r l :=
    funext fun a => by match a with | ⟨0, _⟩ => rfl | ⟨1, _⟩ => rfl
  have er : ridx_main_v9 (ix2 r j) l = ix2 l j :=
    funext fun a => by match a with | ⟨0, _⟩ => rfl | ⟨1, _⟩ => rfl
  rw [el, er, relu_at]

/-! ## The second layer: A₁·hidden + b₂ -/

/-- A₁·hidden + b₂ at (r, j) is the second propagation step. -/
theorem layer2_at (x0 : X0) (x1 : X1) (x2 : X2) (x3 : X3) (x4 : X4) (x5 : X3) (r : Fin 10000) (j : Fin 16) :
    val_main_v15 (F := Ideal) x0 x1 x2 x3 x4 x5 (ix2 r j)
      = Gcn.prop 1 x1 (Gcn.hidden x1 (Gcn.feat x0 x2) x3 x4) x5 r j := by
  show val_main_v12 (F := Ideal) x0 x1 x2 x3 x4 (ix2 r j) + val_main_v14 (F := Ideal) x5 (ix2 r j) = _
  rw [val_main_v12_apply, bias2_at]
  unfold Gcn.prop
  refine congrArg (· + x5 (ix1 j)) (Finset.sum_congr rfl fun k _ => ?_)
  have el : lidx_main_v12 (ix2 r j) k = ix2 r k :=
    funext fun a => by match a with | ⟨0, _⟩ => rfl | ⟨1, _⟩ => rfl
  have er : ridx_main_v12 (ix2 r j) k = ix2 k j :=
    funext fun a => by match a with | ⟨0, _⟩ => rfl | ⟨1, _⟩ => rfl
  rw [el, er, slab1_at, hidden_at]

/-! ## logSoftmax along each row -/

/-- Row r of the second propagation step. -/
abbrev row (x0 : X0) (x1 : X1) (x2 : X2) (x3 : X3) (x4 : X4) (x5 : X3) (r : Fin 10000) : Fin 16 → EReal :=
  fun l => Gcn.prop 1 x1 (Gcn.hidden x1 (Gcn.feat x0 x2) x3 x4) x5 r l

/-- The maximum with the starting value of a fold of max changes nothing: the fold is already above its start. -/
theorem max_fold_max (b : EReal) (f : Fin 16 → EReal) :
    max b ((Finset.univ : Finset (Fin 16)).fold max b f) = (Finset.univ : Finset (Fin 16)).fold max b f :=
  max_eq_right ((Finset.le_fold_max b).mpr (Or.inl le_rfl))

/-- The row maximum, compared once more with the word of −∞, at row r. -/
theorem rowMax_at (x0 : X0) (x1 : X1) (x2 : X2) (x3 : X3) (x4 : X4) (x5 : X3) (r : Fin 10000) :
    val_main_call0_v2 (F := Ideal) x0 x1 x2 x3 x4 x5 (ix1 r) = Gcn.rowMax (row x0 x1 x2 x3 x4 x5 r) := by
  show max (val_main_call0_v1 (F := Ideal) (ix1 r)) (val_main_call0_v0 (F := Ideal) x0 x1 x2 x3 x4 x5 (ix1 r)) = _
  have h0 : val_main_call0_v0 (F := Ideal) x0 x1 x2 x3 x4 x5 (ix1 r)
      = (Finset.univ : Finset (Fin 16)).fold max Gcn.negInfWord (row x0 x1 x2 x3 x4 x5 r) := by
    unfold val_main_call0_v0
    refine (RowOps.hostReduce_maximumf_row (val_main_v15 (F := Ideal) x0 x1 x2 x3 x4 x5) (val_main_call0_cst (F := Ideal))
      Facts₀.reducesTo_S10000x16_S10000_d1 reduces_rows Facts₀.h_S_ r).trans ?_
    exact congrArg (fun f : Fin 16 → EReal => (Finset.univ : Finset (Fin 16)).fold max Gcn.negInfWord f)
      (funext fun l => layer2_at x0 x1 x2 x3 x4 x5 r l)
  rw [h0, val_main_call0_v1_apply]
  exact max_fold_max Gcn.negInfWord (row x0 x1 x2 x3 x4 x5 r)

/-- The row maximum repeated along the row, at (r, j). -/
theorem rowMax_bcast_at (x0 : X0) (x1 : X1) (x2 : X2) (x3 : X3) (x4 : X4) (x5 : X3) (r : Fin 10000) (j : Fin 16) :
    val_main_call0_v4 (F := Ideal) x0 x1 x2 x3 x4 x5 (ix2 r j) = Gcn.rowMax (row x0 x1 x2 x3 x4 x5 r) := by
  rw [val_main_call0_v4_apply, val_main_call0_v3_apply]
  refine Eq.trans (congrArg (val_main_call0_v2 (F := Ideal) x0 x1 x2 x3 x4 x5) ?_) (rowMax_at x0 x1 x2 x3 x4 x5 r)
  exact funext fun a => by match a with | ⟨0, _⟩ => rfl

/-- The row shifted by its maximum, at (r, j). -/
theorem shifted_at (x0 : X0) (x1 : X1) (x2 : X2) (x3 : X3) (x4 : X4) (x5 : X3) (r : Fin 10000) (j : Fin 16) :
    val_main_call0_v5 (F := Ideal) x0 x1 x2 x3 x4 x5 (ix2 r j)
      = row x0 x1 x2 x3 x4 x5 r j - Gcn.rowMax (row x0 x1 x2 x3 x4 x5 r) := by
  show val_main_v15 (F := Ideal) x0 x1 x2 x3 x4 x5 (ix2 r j) - val_main_call0_v4 (F := Ideal) x0 x1 x2 x3 x4 x5 (ix2 r j) = _
  rw [layer2_at, rowMax_bcast_at]

/-- The sum of the exponentials of the shifted row, from the word of 0, at row r. -/
theorem sumExp_at (x0 : X0) (x1 : X1) (x2 : X2) (x3 : X3) (x4 : X4) (x5 : X3) (r : Fin 10000) :
    val_main_call0_v7 (F := Ideal) x0 x1 x2 x3 x4 x5 (ix1 r)
      = ∑ l : Fin 16, Ideal.exp (row x0 x1 x2 x3 x4 x5 r l - Gcn.rowMax (row x0 x1 x2 x3 x4 x5 r)) := by
  rw [val_main_call0_v7_apply]
  have hz : val_main_call0_cst_1 (F := Ideal) (Shape.Idx.first Facts₀.h_S_) = 0 := Ideal.ofBits_zero_f32
  rw [hz, zero_add]
  refine Finset.sum_congr rfl fun l _ => ?_
  have ei : idx_main_call0_v7 (ix1 r) l = ix2 r l :=
    funext fun a => by match a with | ⟨0, _⟩ => rfl | ⟨1, _⟩ => rfl
  rw [ei]
  show Ideal.exp (val_main_call0_v5 (F := Ideal) x0 x1 x2 x3 x4 x5 (ix2 r l)) = _
  rw [shifted_at]

/-- The logarithm of that sum repeated along the row, at (r, j). -/
theorem logSum_at (x0 : X0) (x1 : X1) (x2 : X2) (x3 : X3) (x4 : X4) (x5 : X3) (r : Fin 10000) (j : Fin 16) :
    val_main_call0_v10 (F := Ideal) x0 x1 x2 x3 x4 x5 (ix2 r j)
      = Ideal.log (∑ l : Fin 16, Ideal.exp (row x0 x1 x2 x3 x4 x5 r l - Gcn.rowMax (row x0 x1 x2 x3 x4 x5 r))) := by
  rw [val_main_call0_v10_apply]
  show Ideal.log (val_main_call0_v8 (F := Ideal) x0 x1 x2 x3 x4 x5 (idx_main_call0_v10 (ix2 r j))) = _
  rw [val_main_call0_v8_apply]
  refine congrArg Ideal.log (Eq.trans (congrArg (val_main_call0_v7 (F := Ideal) x0 x1 x2 x3 x4 x5) ?_)
    (sumExp_at x0 x1 x2 x3 x4 x5 r))
  exact funext fun a => by match a with | ⟨0, _⟩ => rfl

/-! ## The whole network -/

/-- The reference's result, as a function of its six arguments, is the specification's network. -/
theorem reference_eq (x0 : (⟨S10000x128, .f32⟩ : BufTy).Contents (Elt Ideal)) (x1 : (⟨S2x10000x10000, .f32⟩ : BufTy).Contents (Elt Ideal))
    (x2 : (⟨S128x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal)) :
    val_main_v16 (F := Ideal) x0 x1 x2 x3 x4 x5 = Gcn.gcn x0 x1 x2 x3 x4 x5 := by
  funext i
  obtain ⟨r, j, rfl⟩ : ∃ r j, i = ix2 r j := ⟨i 0, i 1, eq_ix2 i⟩
  show val_main_call0_v5 (F := Ideal) x0 x1 x2 x3 x4 x5 (ix2 r j)
      - val_main_call0_v10 (F := Ideal) x0 x1 x2 x3 x4 x5 (ix2 r j) = _
  rw [shifted_at, logSum_at]
  rfl

end Cert.ReferenceIdeal.RefValue

end
-- ==== Proof.lean ====
/-
  A two-layer graph convolution over dense adjacency slabs: the kernel program against its reference, on the extended
  reals.

  Both programs compute logSoftmax(A₁·(relu(A₀·(X·W₁) + b₁)·W₂) + b₂) row by row. The kernel does it in three regions
  — X·W₁ in one piece, then two passes over the adjacency, 400 rows at a time, the second product fused into the first
  pass and the logSoftmax into the second —; the reference in one line of whole-array operations. Entry by entry the
  two are the same expression: each product is the sum over the contracted coordinate, each bias a row repeated down the
  rows, relu the maximum with 0, and logSoftmax g − max g − log Σ exp (g − max g) with the maximum folded from −∞. No
  sum is regrouped and no factor moved, so the inputs' finiteness is not used.

  The kernel's value is read off its run region by region (KernelArrays, KernelThrough) over the body's stored values
  (Payloads); the reference's off its run operation by operation (ReferenceValue); both against one specification (Spec).
-/
import proofs.«149314_g61306363183712_cont_9to1c4b_794_4_alg».proof.Defs
import proofs.«149314_g61306363183712_cont_9to1c4b_794_4_alg».proof.Proof.Gen.Kernel
import proofs.«149314_g61306363183712_cont_9to1c4b_794_4_alg».proof.Proof.Gen.Kernel.Skeleton
import proofs.«149314_g61306363183712_cont_9to1c4b_794_4_alg».proof.Proof.Gen.Kernel.Launch
import proofs.«149314_g61306363183712_cont_9to1c4b_794_4_alg».proof.Proof.Gen.Kernel.Points
import proofs.«149314_g61306363183712_cont_9to1c4b_794_4_alg».proof.Proof.Gen.Kernel.Frame
import proofs.«149314_g61306363183712_cont_9to1c4b_794_4_alg».proof.Proof.Gen.KernelIdeal
import proofs.«149314_g61306363183712_cont_9to1c4b_794_4_alg».proof.Proof.Gen.KernelIdeal.Skeleton
import proofs.«149314_g61306363183712_cont_9to1c4b_794_4_alg».proof.Proof.Gen.KernelIdeal.Launch
import proofs.«149314_g61306363183712_cont_9to1c4b_794_4_alg».proof.Proof.Gen.KernelIdeal.Points
import proofs.«149314_g61306363183712_cont_9to1c4b_794_4_alg».proof.Proof.Gen.KernelIdeal.Frame
import proofs.«149314_g61306363183712_cont_9to1c4b_794_4_alg».proof.Proof.Gen.ReferenceIdeal
import proofs.«149314_g61306363183712_cont_9to1c4b_794_4_alg».proof.Proof.Gen.Pre_finite_inputs
import proofs.«149314_g61306363183712_cont_9to1c4b_794_4_alg».proof.Proof.KernelThrough
import proofs.«149314_g61306363183712_cont_9to1c4b_794_4_alg».proof.Proof.ReferenceValue
import Idealize.ShloMosaic.Adequacy
import Idealize.ShloMosaic.Init

noncomputable section

namespace Cert.Proof

open Idealize.ShloMosaic Idealize.ShloMosaic.TcCoe Idealize.SL.Sem

namespace GcnClaims

theorem frame_p : Cert.frame_Kernel := fun m ρ _ => Cert.Kernel.Gen.frame m ρ

theorem frame_pi : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the six arguments both programs end with the result at the network of those arguments. -/
theorem algebraic : Cert.algebraic_KernelIdeal_ReferenceIdeal := by
  intro m ρ m' ρ' _ hagree
  refine ⟨_, Cert.KernelIdeal.Through.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v16_eq, Cert.ReferenceIdeal.RefValue.reference_eq,
    (hagree c).1, (hagree c).2.1, (hagree c).2.2.1, (hagree c).2.2.2.1, (hagree c).2.2.2.2.1, (hagree c).2.2.2.2.2]

end GcnClaims

theorem claim : Cert.Claim := ⟨Cert.Kernel.Gen.facts, Cert.KernelIdeal.Gen.facts, Cert.ReferenceIdeal.Gen.facts, Cert.Pre_finite_inputs.Gen.facts,
  GcnClaims.frame_p, GcnClaims.frame_pi, GcnClaims.frame_ri, GcnClaims.preserves, GcnClaims.algebraic⟩

end Cert.Proof

end
